-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x256 : Shape := ⟨2, ![4096, 256]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S16384x4096 .f32) (main_arg1 : FVec F S4096x256 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S16384x4096 : Shape := ⟨2, ![16384, 4096]⟩
abbrev S4096x256 : Shape := ⟨2, ![4096, 256]⟩
abbrev S16384x1 : Shape := ⟨2, ![16384, 1]⟩
abbrev S1024x1024 : Shape := ⟨2, ![1024, 1024]⟩
abbrev S1024x256 : Shape := ⟨2, ![1024, 256]⟩
abbrev S1024x1 : Shape := ⟨2, ![1024, 1]⟩
abbrev S1024 : Shape := ⟨1, ![1024]⟩

abbrev nBuf : Space → Nat
  | .hbm => 3
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S16384x1, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x256 : Shape := ⟨2, ![4096, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S16384x256, .f32⟩
  | .hbm, ⟨3, _⟩ => ⟨S16384x4096, .f32⟩
  | .hbm, ⟨4, _⟩ => ⟨S4096x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x4096_S4096x256_S16384x256_1_0_0_1_n_n_wf : DotDims.WF S16384x4096 S4096x256 S16384x256 [1] [0] [0] [1] [] []

variable [Facts₀]

def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf

class Facts : Prop extends Facts₀ where

variable [Facts]
-- ==== Proof.Pieces.lean ====
/-
  What one run of the kernel body leaves behind, case by case, as the body's own arithmetic.

  The body keeps two [1024, 256] accumulators in scratch, one for the product of the blocks and one for the
  product of their elementwise squares. At the first step of a row block (case A) it stores zero into both
  and then adds the step's two products; at a middle step (case B) it adds them to what the step before left;
  at the last step (case C) it adds them and then stores, into the output block, half the row sums of
  "first accumulator squared minus second accumulator". Each lemma below reads the stores a case makes back
  as one value: the last store into a buffer is what the buffer holds, and a load that follows a store of the
  same buffer reads that store.
-/
import proofs.«110201_j82901458747778_1_alg».proof.Proof.Gen.KernelIdeal.Frame
import Idealize.ShloMosaic.Lib.Pipeline.Value
import Idealize.ShloMosaic.Lib.Tactic

noncomputable section

namespace Cert.KernelIdeal.FM

open Cert.KernelIdeal Cert.KernelIdeal.Gen Idealize.ShloMosaic Idealize.ShloMosaic.TcCoe Idealize.SL.Sem

variable {F : FTy → Type} [FloatOps F]

/-- The offsets of a whole-buffer access are all zero. -/
theorem hz : (![0, 0] : Fin 2 → Nat) = fun _ => 0 := funext fun a => by fin_cases a <;> rfl

/-- First step: the product accumulator ends at "zero, then plus this step's product". -/
theorem first_acc (c : Dev nD) (i : grid0.Coords) (a2 : Memref sig .tc .vmem S1024x1024 .f32) (h2 : a2.IsWhole)
    (a3 : Memref sig .tc .vmem S1024x256 .f32) (h3 : a3.IsWhole) (a4 : Memref sig .tc .vmem S1024x1 .f32) (h4 : a4.IsWhole)
    (a5 : Memref sig .tc .vmem S1024x256 .f32) (h5 : a5.IsWhole) (a6 : Memref sig .tc .vmem S1024x256 .f32) (h6 : a6.IsWhole)
    (hc0 : cond0_0 i) (hc1 : ¬cond0_1 i) (x0 : Vec F S1024x1024 .f32) (x1 : Vec F S1024x256 .f32) :
    sout0_A_0 c i a2 h2 a3 h3 a4 h4 a5 h5 a6 h6 hc0 hc1 x0 x1 = k0_pay3 x0 x1 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1024x256) hz]
  simp only [View.readAt_eq_ld, h2.read_unread, h3.read_unread, h4.read_unread, h5.read_unread, h6.read_unread,
    View.ld_unit_zero (S := S1024x1024) hz, View.ld_unit_zero (S := S1024x256) hz, View.ld_unit_zero (S := S1024x1) hz,
    View.readCov_unit_zero (S := S1024x256) _ hz]

/-- First step: the squares' accumulator likewise. -/
theorem first_sq (c : Dev nD) (i : grid0.Coords) (a2 : Memref sig .tc .vmem S1024x1024 .f32) (h2 : a2.IsWhole)
    (a3 : Memref sig .tc .vmem S1024x256 .f32) (h3 : a3.IsWhole) (a4 : Memref sig .tc .vmem S1024x1 .f32) (h4 : a4.IsWhole)
    (a5 : Memref sig .tc .vmem S1024x256 .f32) (h5 : a5.IsWhole) (a6 : Memref sig .tc .vmem S1024x256 .f32) (h6 : a6.IsWhole)
    (hc0 : cond0_0 i) (hc1 : ¬cond0_1 i) (x0 : Vec F S1024x1024 .f32) (x1 : Vec F S1024x256 .f32) :
    sout0_A_1 c i a2 h2 a3 h3 a4 h4 a5 h5 a6 h6 hc0 hc1 x0 x1 = k0_pay4 x0 x1 (k0_pay2 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S1024x256) hz]
  simp only [View.readAt_eq_ld, h2.read_unread, h3.read_unread, h4.read_unread, h5.read_unread, h6.read_unread,
    View.ld_unit_zero (S := S1024x1024) hz, View.ld_unit_zero (S := S1024x256) hz, View.ld_unit_zero (S := S1024x1) hz,
    View.readCov_unit_zero (S := S1024x256) _ hz]

/-- Middle step: the product accumulator ends at "what it held, plus this step's product". -/
theorem mid_acc (c : Dev nD) (i : grid0.Coords) (a2 : Memref sig .tc .vmem S1024x1024 .f32) (h2 : a2.IsWhole)
    (a3 : Memref sig .tc .vmem S1024x256 .f32) (h3 : a3.IsWhole) (a4 : Memref sig .tc .vmem S1024x1 .f32) (h4 : a4.IsWhole)
    (a5 : Memref sig .tc .vmem S1024x256 .f32) (h5 : a5.IsWhole) (a6 : Memref sig .tc .vmem S1024x256 .f32) (h6 : a6.IsWhole)
    (hc0 : ¬cond0_0 i) (hc1 : ¬cond0_1 i) (x0 : Vec F S1024x1024 .f32) (x1 : Vec F S1024x256 .f32)
    (xs0 xs1 : Vec F S1024x256 .f32) :
    sout0_B_0 c i a2 h2 a3 h3 a4 h4 a5 h5 a6 h6 hc0 hc1 x0 x1 xs0 xs1 = k0_pay3 x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1024x1024) hz, View.ld_unit_zero (S := S1024x256) hz, View.ld_unit_zero (S := S1024x1) hz,
    View.readCov_unit_zero (S := S1024x256) _ hz]

/-- Middle step: the squares' accumulator likewise. -/
theorem mid_sq (c : Dev nD) (i : grid0.Coords) (a2 : Memref sig .tc .vmem S1024x1024 .f32) (h2 : a2.IsWhole)
    (a3 : Memref sig .tc .vmem S1024x256 .f32) (h3 : a3.IsWhole) (a4 : Memref sig .tc .vmem S1024x1 .f32) (h4 : a4.IsWhole)
    (a5 : Memref sig .tc .vmem S1024x256 .f32) (h5 : a5.IsWhole) (a6 : Memref sig .tc .vmem S1024x256 .f32) (h6 : a6.IsWhole)
    (hc0 : ¬cond0_0 i) (hc1 : ¬cond0_1 i) (x0 : Vec F S1024x1024 .f32) (x1 : Vec F S1024x256 .f32)
    (xs0 xs1 : Vec F S1024x256 .f32) :
    sout0_B_1 c i a2 h2 a3 h3 a4 h4 a5 h5 a6 h6 hc0 hc1 x0 x1 xs0 xs1 = k0_pay4 x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1024x1024) hz, View.ld_unit_zero (S := S1024x256) hz, View.ld_unit_zero (S := S1024x1) hz,
    View.readCov_unit_zero (S := S1024x256) _ hz]

/-- Last step: the product accumulator, as at a middle step. -/
theorem last_acc (c : Dev nD) (i : grid0.Coords) (a2 : Memref sig .tc .vmem S1024x1024 .f32) (h2 : a2.IsWhole)
    (a3 : Memref sig .tc .vmem S1024x256 .f32) (h3 : a3.IsWhole) (a4 : Memref sig .tc .vmem S1024x1 .f32) (h4 : a4.IsWhole)
    (a5 : Memref sig .tc .vmem S1024x256 .f32) (h5 : a5.IsWhole) (a6 : Memref sig .tc .vmem S1024x256 .f32) (h6 : a6.IsWhole)
    (hc0 : ¬cond0_0 i) (hc1 : cond0_1 i) (x0 : Vec F S1024x1024 .f32) (x1 : Vec F S1024x256 .f32)
    (xs0 xs1 : Vec F S1024x256 .f32) :
    sout0_C_0 c i a2 h2 a3 h3 a4 h4 a5 h5 a6 h6 hc0 hc1 x0 x1 xs0 xs1 = k0_pay3 x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h4.read_unread, h5.read_unread, h6.read_unread,
    View.ld_unit_zero (S := S1024x1024) hz, View.ld_unit_zero (S := S1024x256) hz, View.ld_unit_zero (S := S1024x1) hz,
    View.readCov_unit_zero (S := S1024x256) _ hz]

/-- Last step: the squares' accumulator, as at a middle step. -/
theorem last_sq (c : Dev nD) (i : grid0.Coords) (a2 : Memref sig .tc .vmem S1024x1024 .f32) (h2 : a2.IsWhole)
    (a3 : Memref sig .tc .vmem S1024x256 .f32) (h3 : a3.IsWhole) (a4 : Memref sig .tc .vmem S1024x1 .f32) (h4 : a4.IsWhole)
    (a5 : Memref sig .tc .vmem S1024x256 .f32) (h5 : a5.IsWhole) (a6 : Memref sig .tc .vmem S1024x256 .f32) (h6 : a6.IsWhole)
    (hc0 : ¬cond0_0 i) (hc1 : cond0_1 i) (x0 : Vec F S1024x1024 .f32) (x1 : Vec F S1024x256 .f32)
    (xs0 xs1 : Vec F S1024x256 .f32) :
    sout0_C_1 c i a2 h2 a3 h3 a4 h4 a5 h5 a6 h6 hc0 hc1 x0 x1 xs0 xs1 = k0_pay4 x0 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h4.read_unread, h5.read_unread, h6.read_unread,
    View.ld_unit_zero (S := S1024x1024) hz, View.ld_unit_zero (S := S1024x256) hz, View.ld_unit_zero (S := S1024x1) hz,
    View.readCov_unit_zero (S := S1024x256) _ hz]

/-- Last step: the output block is the closing formula of the two accumulators as this step leaves them. -/
theorem last_out (c : Dev nD) (i : grid0.Coords) (a2 : Memref sig .tc .vmem S1024x1024 .f32) (h2 : a2.IsWhole)
    (a3 : Memref sig .tc .vmem S1024x256 .f32) (h3 : a3.IsWhole) (a4 : Memref sig .tc .vmem S1024x1 .f32) (h4 : a4.IsWhole)
    (a5 : Memref sig .tc .vmem S1024x256 .f32) (h5 : a5.IsWhole) (a6 : Memref sig .tc .vmem S1024x256 .f32) (h6 : a6.IsWhole)
    (hc0 : ¬cond0_0 i) (hc1 : cond0_1 i) (x0 : Vec F S1024x1024 .f32) (x1 : Vec F S1024x256 .f32)
    (xs0 xs1 : Vec F S1024x256 .f32) :
    out0_C_2 c i a2 h2 a3 h3 a4 h4 a5 h5 a6 h6 hc0 hc1 x0 x1 xs0 xs1 = k0_pay5 (k0_pay3 x0 x1 xs0) (k0_pay4 x0 x1 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h4.read_unread, h5.read_unread, h6.read_unread,
    View.ld_unit_zero (S := S1024x1024) hz, View.ld_unit_zero (S := S1024x256) hz, View.ld_unit_zero (S := S1024x1) hz,
    View.readCov_unit_zero (S := S1024x256) _ hz]

end Cert.KernelIdeal.FM

end
-- ==== Proof.Blocks.lean ====
/-
  The blocks a grid point works on, as entries of the whole arrays.

  The grid has 16 * 4 points; point t works on row block t / 4 and contraction block t % 4. Its block of x is
  rows (t / 4) * 1024 + r and columns (t % 4) * 1024 + j of x, its block of v is rows (t % 4) * 1024 + j of v
  (all 256 columns), and the output block it belongs to is rows (t / 4) * 1024 + r of the one-column result.
-/
import proofs.«110201_j82901458747778_1_alg».proof.Proof.Gen.KernelIdeal.Frame
import Idealize.ShloMosaic.Lib.ValueIdx
import Idealize.ShloMosaic.Lib.Pipeline.Value

noncomputable section

namespace Cert.KernelIdeal.FM

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The two argument arrays, as the region finds them. -/
abbrev xarr (c : Dev nD) : Vec F S16384x4096 .f32 := V m c main_arg0
abbrev varr (c : Dev nD) : Vec F S4096x256 .f32 := V m c main_arg1

/-- The two input blocks of grid point `t`. -/
abbrev xblk (c : Dev nD) (t : Fin cfg0.N) : Vec F S1024x1024 .f32 := iblk m c 0 t
abbrev vblk (c : Dev nD) (t : Fin cfg0.N) : Vec F S1024x256 .f32 := iblk m c 1 t

/-- Row `r` of row block `p`. -/
def rowOf (p : Fin 16) (r : Fin 1024) : Fin 16384 := ⟨p.val * 1024 + r.val, by have := p.isLt; have := r.isLt; omega⟩
/-- Contracted index `j` of contraction block `k`. -/
def colOf (k : Fin 4) (j : Fin 1024) : Fin 4096 := ⟨k.val * 1024 + j.val, by have := k.isLt; have := j.isLt; omega⟩

/-- The grid has 64 points. -/
theorem N_eq : cfg0.N = 64 := N_0

/-- The row block and the contraction block of a point. -/
def rowBlk (t : Fin cfg0.N) : Fin 16 := ⟨t.val / 4, by have := t.isLt; have := N_eq; omega⟩
def conBlk (t : Fin cfg0.N) : Fin 4 := ⟨t.val % 4, Nat.mod_lt _ (by decide)⟩

/-- The block indices of the three windows at every point: x at (t / 4, t % 4), v at (t % 4, 0), the result at (t / 4, 0). -/
theorem index_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0)

/-- Entry (r, j) of a point's block of x. -/
theorem xblk_apply (c : Dev nD) (t : Fin cfg0.N) (r j : Fin 1024) :
    xblk m c t (ix2 r j) = xarr m c (ix2 (rowOf (rowBlk t) r) (colOf (conBlk t) j)) := by
  obtain ⟨f0, f1, -⟩ := index_facts t
  show iblk m c 0 t (ix2 r j) = _
  unfold iblk
  rw [View.read_apply]
  show V m c main_arg0 _ = V m c main_arg0 _
  congr 1
  funext a
  apply Fin.ext
  match a with
  | ⟨0, _⟩ => show win0_0.index t 0 * 1024 + 1 * r.val = (t.val / 4) * 1024 + r.val; rw [f0]; omega
  | ⟨1, _⟩ => show win0_0.index t 1 * 1024 + 1 * j.val = (t.val % 4) * 1024 + j.val; rw [f1]; omega

/-- Entry (j, f) of a point's block of v. -/
theorem vblk_apply (c : Dev nD) (t : Fin cfg0.N) (j : Fin 1024) (f : Fin 256) :
    vblk m c t (ix2 j f) = varr m c (ix2 (colOf (conBlk t) j) f) := by
  obtain ⟨-, -, f0, f1, -⟩ := index_facts t
  show iblk m c 1 t (ix2 j f) = _
  unfold iblk
  rw [View.read_apply]
  show V m c main_arg1 _ = V m c main_arg1 _
  congr 1
  funext a
  apply Fin.ext
  match a with
  | ⟨0, _⟩ => show win0_1.index t 0 * 1024 + 1 * j.val = (t.val % 4) * 1024 + j.val; rw [f0]; omega
  | ⟨1, _⟩ => show win0_1.index t 1 * 256 + 1 * f.val = f.val; rw [f1]; omega

end Cert.KernelIdeal.FM

end
-- ==== Proof.Steps.lean ====
/-
  What the two accumulators and the output block hold after each grid point, in terms of the point's own blocks
  and what the point before left.

  A point with t % 4 = 0 starts a row block: both accumulators are reset and take the first step. Every other
  point takes one more step from what the point before left. A point with t % 4 = 3 also stores the closing
  formula of the two accumulators, as it has just left them, into the output block.
-/
import proofs.«110201_j82901458747778_1_alg».proof.Proof.Pieces
import proofs.«110201_j82901458747778_1_alg».proof.Proof.Blocks

noncomputable section

namespace Cert.KernelIdeal.FM

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The first accumulator after a point that starts a row block. -/
theorem acc_start (c : Dev nD) (t : Fin cfg0.N) (h0 : t.val % 4 = 0) :
    (outsAt0 m c t.val t.isLt).2.1 = k0_pay3 (xblk m c t) (vblk m c t) (k0_pay1 (F := F)) := by
  have h1 : ¬t.val % 4 = 3 := by omega
  rw [outsAt0_A m c t h0 h1]
  dsimp only
  exact first_acc c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- The second accumulator after a point that starts a row block. -/
theorem sq_start (c : Dev nD) (t : Fin cfg0.N) (h0 : t.val % 4 = 0) :
    (outsAt0 m c t.val t.isLt).2.2 = k0_pay4 (xblk m c t) (vblk m c t) (k0_pay2 (F := F)) := by
  have h1 : ¬t.val % 4 = 3 := by omega
  rw [outsAt0_A m c t h0 h1]
  dsimp only
  exact first_sq c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- The first accumulator after any other point: one more step from what the point before left. -/
theorem acc_next (c : Dev nD) (t : Fin cfg0.N) (h0 : ¬t.val % 4 = 0) :
    (outsAt0 m c t.val t.isLt).2.1 = k0_pay3 (xblk m c t) (vblk m c t) (outsAt0 m c (t.val - 1) (Nat.lt_of_le_of_lt (Nat.sub_le _ _) t.isLt)).2.1 := by
  by_cases h1 : t.val % 4 = 3
  · rw [outsAt0_C m c t h0 h1]
    dsimp only
    exact last_acc c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact mid_acc c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- The second accumulator after any other point. -/
theorem sq_next (c : Dev nD) (t : Fin cfg0.N) (h0 : ¬t.val % 4 = 0) :
    (outsAt0 m c t.val t.isLt).2.2 = k0_pay4 (xblk m c t) (vblk m c t) (outsAt0 m c (t.val - 1) (Nat.lt_of_le_of_lt (Nat.sub_le _ _) t.isLt)).2.2 := by
  by_cases h1 : t.val % 4 = 3
  · rw [outsAt0_C m c t h0 h1]
    dsimp only
    exact last_sq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact mid_sq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- The output block after a point that ends a row block: the closing formula of the two accumulators as that
    point leaves them. -/
theorem out_end (c : Dev nD) (t : Fin cfg0.N) (h1 : t.val % 4 = 3) :
    (outsAt0 m c t.val t.isLt).1 = k0_pay5 (outsAt0 m c t.val t.isLt).2.1 (outsAt0 m c t.val t.isLt).2.2 := by
  have h0 : ¬t.val % 4 = 0 := by omega
  rw [acc_next m c t h0, sq_next m c t h0, outsAt0_C m c t h0 h1]
  dsimp only
  exact last_out c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.FM

end
-- ==== Proof.Payloads.lean ====
/-
  The body's arithmetic read at one entry, on the extended reals.

  At the ideal instance a change of float format is the identity and a matrix product into a zero accumulator
  is the plain sum of products over the contracted index. So one step of the body adds to entry (r, f) of the
  first accumulator the sum over j of x(r, j) * v(j, f) of the step's blocks, and to the second accumulator the
  same sum of the squares x(r, j)^2 * v(j, f)^2; the reset stores zero; and the closing formula at row r is
  one half times the sum over the 256 columns f of "first accumulator squared minus second accumulator".
-/
import proofs.«110201_j82901458747778_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.FM

open Cert.KernelIdeal Cert.KernelIdeal.Gen Idealize.ShloMosaic Idealize.ShloMosaic.TcCoe Idealize.ShloMosaic.ValueIdx

/-! ## The product of two blocks at an entry -/

theorem lhs_blk_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_blk_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_blk_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_blk_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A [1024, 1024] by [1024, 256] product into the zero accumulator, at entry (r, f): the sum over the 1024
    contracted indices j of left (r, j) times right (j, f), whatever the operands' float formats. -/
theorem product_apply {φ₁ φ₂ : FTy} (a : FVec Ideal S1024x1024 φ₁) (b : FVec Ideal S1024x256 φ₂) (r : Fin 1024) (f : Fin 256) :
    FloatOps.matmul dot_S1024x1024_S1024x256_S1024x256_1_0_0_1_n_n none a b (constant S1024x256 .f32 0x00000000#32) (ix2 r f)
      = ∑ j : Fin 1024, a (ix2 r j) * b (ix2 j f) := by
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 r f) ((ValueIdx.contrEquiv1 dot_S1024x1024_S1024x256_S1024x256_1_0_0_1_n_n 1024 rfl rfl).symm k) = ix2 r k := funext fun a => Fin.ext (by
    match a with
    | ⟨0, _⟩ => exact lhs_blk_0 _ _
    | ⟨1, _⟩ => exact (lhs_blk_1 _ _).trans hk)
  have er : dot_S1024x1024_S1024x256_S1024x256_1_0_0_1_n_n.rhsIdx (ix2 r f) ((ValueIdx.contrEquiv1 dot_S1024x1024_S1024x256_S1024x256_1_0_0_1_n_n 1024 rfl rfl).symm k) = ix2 k f := funext fun a => Fin.ext (by
    match a with
    | ⟨0, _⟩ => exact (rhs_blk_0 _ _).trans hk
    | ⟨1, _⟩ => exact rhs_blk_1 _ _)
  rw [el, er]

/-! ## The stores' values at an entry -/

/-- The reset of the first accumulator stores zero. -/
theorem reset_acc_apply (i : S1024x256.Idx) : k0_pay1 (F := Ideal) i = 0 := by
  unfold k0_pay1
  rw [shapeCast_self]
  exact Ideal.ofBits_zero_f32

/-- The reset of the second accumulator stores zero. -/
theorem reset_sq_apply (i : S1024x256.Idx) : k0_pay2 (F := Ideal) i = 0 := by
  unfold k0_pay2
  rw [shapeCast_self]
  exact Ideal.ofBits_zero_f32

/-- One step of the first accumulator at (r, f): what it held plus the blocks' product there. -/
theorem step_acc_apply (x : Vec Ideal S1024x1024 .f32) (v : Vec Ideal S1024x256 .f32) (acc : Vec Ideal S1024x256 .f32)
    (r : Fin 1024) (f : Fin 256) :
    k0_pay3 (F := Ideal) x v acc (ix2 r f) = acc (ix2 r f) + ∑ j : Fin 1024, x (ix2 r j) * v (ix2 j f) := by
  unfold k0_pay3
  rw [shapeCast_self, addf_apply]
  simp only [matmul]
  rw [product_apply]
  rfl

/-- One step of the second accumulator at (r, f): what it held plus the product of the squared blocks there. -/
theorem step_sq_apply (x : Vec Ideal S1024x1024 .f32) (v : Vec Ideal S1024x256 .f32) (acc : Vec Ideal S1024x256 .f32)
    (r : Fin 1024) (f : Fin 256) :
    k0_pay4 (F := Ideal) x v acc (ix2 r f)
      = acc (ix2 r f) + ∑ j : Fin 1024, (x (ix2 r j) * x (ix2 r j)) * (v (ix2 j f) * v (ix2 j f)) := by
  unfold k0_pay4
  rw [shapeCast_self, addf_apply]
  simp only [matmul]
  rw [product_apply]
  rfl

/-- A sum along the 256 columns of a [1024, 256] value, at row r. -/
theorem rowsum_apply (s : FVec Ideal S1024x256 .f32) (hφ : FKind.Formats .f32)
    (hacc : (0x00000000#32 : BitVec 32) = 0x00000000#32) (r : Fin 1024) :
    multiReduction .add [1] S1024 s 0x00000000#32 reduces_S1024x256_S1024 hφ hacc (ix1 r) = ∑ f : Fin 256, s (ix2 r f) := by
  refine (Ideal.multiReduction_add_single s 0x00000000#32 reduces_S1024x256_S1024 hφ hacc (ix1 r)).trans ?_
  refine Finset.sum_congr rfl fun f _ => congrArg s ?_
  funext a
  apply Fin.ext
  match a with
  | ⟨0, _⟩ => rfl
  | ⟨1, _⟩ => rfl

/-- The closing formula at row r: one half (the word 0x3F000000) times the sum over the 256 columns of
    "first accumulator squared minus second accumulator". -/
theorem closing_apply (a b : Vec Ideal S1024x256 .f32) (r : Fin 1024) (z : Fin 1) :
    k0_pay5 (F := Ideal) a b (ix2 r z)
      = Ideal.ofBits .f32 0x3F000000#32 * ∑ f : Fin 256, (a (ix2 r f) * a (ix2 r f) - b (ix2 r f)) := by
  unfold k0_pay5
  rw [mulf_apply, broadcast_apply]
  rw [shapeCast_apply _ shapeCasts_S1024_S1024x1 (ix2 r z) (ix1 r) (by
    rw [Shape.rowMajor_val_one, Shape.rowMajor_val_two]
    have hz : z.val = 0 := by omega
    show r.val = r.val * 1 + z.val
    omega)]
  exact congrArg (Ideal.ofBits .f32 0x3F000000#32 * ·) (rowsum_apply _ _ _ r)

end Cert.KernelIdeal.FM

end
-- ==== Proof.BlockSums.lean ====
/-
  Sums cut into consecutive blocks.

  A sequence indexed by the natural numbers, summed over the first `k` blocks of `w` consecutive terms, grows
  by one block's sum when `k` grows by one; a sequence given on `Fin N` is continued by zero so that it can be
  summed this way, and the sum over the first `N` naturals of the continuation is the sum over `Fin N`. With
  `N = 4 * 1024` this is how a contraction over 4096 indices is the sum of four contractions over 1024.
  Everything here holds in any commutative additive monoid: only associativity and commutativity of addition
  are used, so it holds on the extended reals at infinite values too.
-/
import Mathlib.Algebra.BigOperators.Fin

namespace Cert.FM

open Finset

variable {M : Type*} [AddCommMonoid M]

/-- A sequence on `Fin N`, continued by zero to every natural number. -/
def extend {N : ℕ} (G : Fin N → M) : ℕ → M := fun n => if h : n < N then G ⟨n, h⟩ else 0

theorem extend_of_lt {N : ℕ} (G : Fin N → M) {n : ℕ} (h : n < N) : extend G n = G ⟨n, h⟩ := dif_pos h

/-- Summing the continuation over the first `N` naturals is summing the sequence. -/
theorem sum_extend {N : ℕ} (G : Fin N → M) : ∑ n ∈ range N, extend G n = ∑ n : Fin N, G n := by
  rw [← Fin.sum_univ_eq_sum_range]
  exact Finset.sum_congr rfl fun n _ => extend_of_lt G n.isLt

/-- The sum of the first `k` blocks of `w` consecutive terms. -/
def firstBlocks (w : ℕ) (g : ℕ → M) (k : ℕ) : M := ∑ n ∈ range (k * w), g n

theorem firstBlocks_zero (w : ℕ) (g : ℕ → M) : firstBlocks w g 0 = 0 := by
  unfold firstBlocks
  rw [Nat.zero_mul, Finset.sum_range_zero]

/-- One more block: add the sum of block `k`, whose terms are at `k * w + j`. -/
theorem firstBlocks_succ (w : ℕ) (g : ℕ → M) (k : ℕ) :
    firstBlocks w g (k + 1) = firstBlocks w g k + ∑ j : Fin w, g (k * w + j.val) := by
  unfold firstBlocks
  rw [Nat.succ_mul, Finset.sum_range_add, Fin.sum_univ_eq_sum_range (fun j => g (k * w + j)) w]

/-- Four blocks of 1024 are the whole sum over `Fin 4096`. -/
theorem firstBlocks_four (G : Fin 4096 → M) : firstBlocks 1024 (extend G) 4 = ∑ n : Fin 4096, G n := by
  unfold firstBlocks
  exact sum_extend G

end Cert.FM
-- ==== Proof.Spec.lean ====
/-
  The function both programs compute, on the extended reals.

  For a row i of x the second-order interaction term is
      one half * sum over the 256 columns f of ( (sum_n x(i, n) * v(n, f))^2 - sum_n x(i, n)^2 * v(n, f)^2 ),
  the inner sums over the 4096 contracted indices n. "One half" is the float word 0x3F000000, the same word in
  both programs, so it is never evaluated. The result array has one column.
-/
import Idealize.ShloMosaic.Lib.ValueIdx
import Idealize.ShloMosaic.PureOps.Ideal

noncomputable section

namespace Cert.FM

open Idealize.ShloMosaic Idealize.ShloMosaic.ValueIdx

/-- The interaction term of row `i`. -/
def interaction (x : FVec Ideal ⟨2, ![16384, 4096]⟩ .f32) (v : FVec Ideal ⟨2, ![4096, 256]⟩ .f32) (i : Fin 16384) : Ideal .f32 :=
  Ideal.ofBits .f32 0x3F000000#32 * ∑ f : Fin 256,
    ((∑ n : Fin 4096, x (ix2 i n) * v (ix2 n f)) * (∑ n : Fin 4096, x (ix2 i n) * v (ix2 n f))
      - ∑ n : Fin 4096, (x (ix2 i n) * x (ix2 i n)) * (v (ix2 n f) * v (ix2 n f)))

/-- The result array: one column, row `i` holding row `i`'s interaction term. -/
def result (x : FVec Ideal ⟨2, ![16384, 4096]⟩ .f32) (v : FVec Ideal ⟨2, ![4096, 256]⟩ .f32) : FVec Ideal ⟨2, ![16384, 1]⟩ .f32 :=
  fun i => interaction x v (i 0)

end Cert.FM

end
-- ==== Proof.Accumulate.lean ====
/-
  The accumulators are partial sums of the contraction, and the stored block is the interaction term.

  Fix a row r of a row block and a column f. The 4096 products x(row, n) * v(n, f) form a sequence; the first
  accumulator at (r, f), after the point that works on contraction block k of that row block, is the sum of the
  first k + 1 blocks of 1024 terms of it: the starting point stores zero and adds block 0, every later point adds
  its own block to what the point before left. The second accumulator is the same for the sequence of squared
  products. After the last of a row block's four points both are the full sums over the 4096 indices, and the
  closing formula of them is the interaction term of the row. Only associativity and commutativity of addition
  on the extended reals are used, so no finiteness of the inputs is needed.
-/
import proofs.«110201_j82901458747778_1_alg».proof.Proof.Steps
import proofs.«110201_j82901458747778_1_alg».proof.Proof.Payloads
import proofs.«110201_j82901458747778_1_alg».proof.Proof.BlockSums
import proofs.«110201_j82901458747778_1_alg».proof.Proof.Spec

noncomputable section

namespace Cert.KernelIdeal.FM

open Cert.KernelIdeal Cert.KernelIdeal.Gen Idealize.ShloMosaic Idealize.ShloMosaic.TcCoe Idealize.SL.Sem
open Idealize.ShloMosaic.ValueIdx Cert.FM

variable (m : (ℓ : Loc nD τ sig) → Buf (Elt Ideal) ℓ)

/-- The products over the contracted index for row r of row block p and column f, as a sequence. -/
def prodSeq (c : Dev nD) (p : Fin 16) (r : Fin 1024) (f : Fin 256) : ℕ → Ideal .f32 :=
  extend fun n : Fin 4096 => xarr m c (ix2 (rowOf p r) n) * varr m c (ix2 n f)

/-- The squared products likewise. -/
def sqSeq (c : Dev nD) (p : Fin 16) (r : Fin 1024) (f : Fin 256) : ℕ → Ideal .f32 :=
  extend fun n : Fin 4096 => (xarr m c (ix2 (rowOf p r) n) * xarr m c (ix2 (rowOf p r) n)) * (varr m c (ix2 n f) * varr m c (ix2 n f))

/-- The product of a point's two blocks at (r, f) is block t % 4 of the row's sequence. -/
theorem block_prod (c : Dev nD) (t : Fin cfg0.N) (r : Fin 1024) (f : Fin 256) :
    ∑ j : Fin 1024, xblk m c t (ix2 r j) * vblk m c t (ix2 j f)
      = ∑ j : Fin 1024, prodSeq m c (rowBlk t) r f (t.val % 4 * 1024 + j.val) := by
  refine Finset.sum_congr rfl fun j _ => ?_
  rw [xblk_apply, vblk_apply]
  unfold prodSeq
  rw [extend_of_lt _ (show t.val % 4 * 1024 + j.val < 4096 by have := j.isLt; omega)]
  rfl

theorem block_sq (c : Dev nD) (t : Fin cfg0.N) (r : Fin 1024) (f : Fin 256) :
    ∑ j : Fin 1024, (xblk m c t (ix2 r j) * xblk m c t (ix2 r j)) * (vblk m c t (ix2 j f) * vblk m c t (ix2 j f))
      = ∑ j : Fin 1024, sqSeq m c (rowBlk t) r f (t.val % 4 * 1024 + j.val) := by
  refine Finset.sum_congr rfl fun j _ => ?_
  rw [xblk_apply, vblk_apply]
  unfold sqSeq
  rw [extend_of_lt _ (show t.val % 4 * 1024 + j.val < 4096 by have := j.isLt; omega)]
  rfl

/-- The point before a point that does not start a row block is in the same row block, one contraction block earlier. -/
theorem rowBlk_pred (t : Fin cfg0.N) (h0 : ¬t.val % 4 = 0) : rowBlk ⟨t.val - 1, Nat.lt_of_le_of_lt (Nat.sub_le _ _) t.isLt⟩ = rowBlk t :=
  Fin.ext (by show (t.val - 1) / 4 = t.val / 4; omega)

/-- THE FIRST ACCUMULATOR after point t, at (r, f): the first t % 4 + 1 blocks of the row's products. -/
theorem acc_eq (c : Dev nD) (r : Fin 1024) (f : Fin 256) : ∀ (n : ℕ) (t : Fin cfg0.N), t.val = n →
    (outsAt0 m c t.val t.isLt).2.1 (ix2 r f) = firstBlocks 1024 (prodSeq m c (rowBlk t) r f) (t.val % 4 + 1) := by
  intro n
  induction n using Nat.strong_induction_on with
  | _ n ih =>
    intro t ht
    by_cases h0 : t.val % 4 = 0
    · refine (congrFun (acc_start m c t h0) (ix2 r f)).trans ?_
      refine (step_acc_apply _ _ _ r f).trans ?_
      rw [reset_acc_apply, block_prod m c t r f, h0, firstBlocks_succ, firstBlocks_zero]
    · refine (congrFun (acc_next m c t h0) (ix2 r f)).trans ?_
      refine (step_acc_apply _ _ _ r f).trans ?_
      have hp := ih (t.val - 1) (by omega) ⟨t.val - 1, Nat.lt_of_le_of_lt (Nat.sub_le _ _) t.isLt⟩ rfl
      obtain ⟨k, hk⟩ : ∃ k, t.val % 4 = k + 1 := ⟨t.val % 4 - 1, by omega⟩
      have hk' : (t.val - 1) % 4 = k := by omega
      rw [rowBlk_pred t h0] at hp
      show (outsAt0 m c (t.val - 1) _).2.1 (ix2 r f) + _ = _
      rw [block_prod m c t r f, hk, firstBlocks_succ]
      refine congrArg (· + _) ?_
      refine hp.trans ?_
      show firstBlocks 1024 _ ((t.val - 1) % 4 + 1) = _
      rw [hk']

/-- THE SECOND ACCUMULATOR after point t, at (r, f): the first t % 4 + 1 blocks of the row's squared products. -/
theorem sq_eq (c : Dev nD) (r : Fin 1024) (f : Fin 256) : ∀ (n : ℕ) (t : Fin cfg0.N), t.val = n →
    (outsAt0 m c t.val t.isLt).2.2 (ix2 r f) = firstBlocks 1024 (sqSeq m c (rowBlk t) r f) (t.val % 4 + 1) := by
  intro n
  induction n using Nat.strong_induction_on with
  | _ n ih =>
    intro t ht
    by_cases h0 : t.val % 4 = 0
    · refine (congrFun (sq_start m c t h0) (ix2 r f)).trans ?_
      refine (step_sq_apply _ _ _ r f).trans ?_
      rw [reset_sq_apply, block_sq m c t r f, h0, firstBlocks_succ, firstBlocks_zero]
    · refine (congrFun (sq_next m c t h0) (ix2 r f)).trans ?_
      refine (step_sq_apply _ _ _ r f).trans ?_
      have hp := ih (t.val - 1) (by omega) ⟨t.val - 1, Nat.lt_of_le_of_lt (Nat.sub_le _ _) t.isLt⟩ rfl
      obtain ⟨k, hk⟩ : ∃ k, t.val % 4 = k + 1 := ⟨t.val % 4 - 1, by omega⟩
      have hk' : (t.val - 1) % 4 = k := by omega
      rw [rowBlk_pred t h0] at hp
      show (outsAt0 m c (t.val - 1) _).2.2 (ix2 r f) + _ = _
      rw [block_sq m c t r f, hk, firstBlocks_succ]
      refine congrArg (· + _) ?_
      refine hp.trans ?_
      show firstBlocks 1024 _ ((t.val - 1) % 4 + 1) = _
      rw [hk']

/-- THE STORED BLOCK after a point that ends a row block: at row r, the interaction term of row r of that row block. -/
theorem out_eq (c : Dev nD) (t : Fin cfg0.N) (h1 : t.val % 4 = 3) (r : Fin 1024) (z : Fin 1) :
    (outsAt0 m c t.val t.isLt).1 (ix2 r z) = interaction (xarr m c) (varr m c) (rowOf (rowBlk t) r) := by
  refine (congrFun (out_end m c t h1) (ix2 r z)).trans ?_
  refine (closing_apply _ _ r z).trans ?_
  unfold interaction
  refine congrArg (_ * ·) (Finset.sum_congr rfl fun f _ => ?_)
  rw [acc_eq m c r f t.val t rfl, sq_eq m c r f t.val t rfl, h1]
  show firstBlocks 1024 _ 4 * firstBlocks 1024 _ 4 - firstBlocks 1024 _ 4 = _
  unfold prodSeq sqSeq
  rw [firstBlocks_four, firstBlocks_four]

end Cert.KernelIdeal.FM

end
-- ==== Proof.KernelValue.lean ====
/-
  The kernel's result array.

  Only the points that end a row block (t % 4 = 3) write the output block back, and what such a point writes is
  rows (t / 4) * 1024 .. (t / 4) * 1024 + 1023 of the interaction terms. Every row of the one-column result lies in
  exactly such a block (row i in the block of point 4 * (i / 1024) + 3), so after the run the result array holds
  the interaction term of every row.
-/
import proofs.«110201_j82901458747778_1_alg».proof.Proof.Accumulate
import proofs.«110201_j82901458747778_1_alg».proof.Proof.Gen.KernelIdeal.Value

noncomputable section

namespace Cert.KernelIdeal.FM

open Cert.KernelIdeal Cert.KernelIdeal.Gen Idealize.ShloMosaic Idealize.ShloMosaic.TcCoe Idealize.SL.Sem
open Idealize.ShloMosaic.Pipeline (Dat)
open Idealize.ShloMosaic.ValueIdx Cert.FM

variable (m : (ℓ : Loc nD τ sig) → Buf (Elt Ideal) ℓ) (ρ : Dev nD → PrngReg)

/-- Entry j of the block a closing point stores is the result at the array index i the block puts it at, when
    i's row is row (j 0) of the point's row block. -/
theorem stored_entry (c : Dev nD) (t : Fin cfg0.N) (h1 : t.val % 4 = 3) (j : S1024x1.Idx) (i : S16384x1.Idx)
    (hi : (i 0).val = t.val / 4 * 1024 + (j 0).val) :
    (outsAt0 m c t.val t.isLt).1 j = result (xarr m c) (varr m c) i := by
  obtain ⟨r, z, rfl⟩ : ∃ (r : Fin 1024) (z : Fin 1), j = ix2 r z := ⟨j 0, j 1, eq_ix2 j⟩
  refine (out_eq m c t h1 r z).trans ?_
  unfold result
  exact congrArg (interaction (xarr m c) (varr m c)) (Fin.ext hi.symm)

/-- WHAT A CLOSING POINT WRITES BACK is its block of the result. -/
theorem flushed_eq (c : Dev nD) (t : Fin cfg0.N) (hf : (cfg0.win 2).flush t = true) :
    (dats m 0 c).flushed 2 t = ((cfg0.win 2).blk t).view.read (Elt Ideal) (result (xarr m c) (varr m c)) := by
  have h1 : t.val % 4 = 3 := (flush0_2 t).mp hf
  obtain ⟨-, -, -, -, f0, -⟩ := index_facts t
  rw [Cert.KernelIdeal.Value.flushed2]
  funext j
  rw [View.read_apply]
  show (outsAt0 m c t.val t.isLt).1 j = result (xarr m c) (varr m c) (((cfg0.win 2).blk t).view.emb j)
  exact stored_entry m c t h1 j _ (by
    show win0_2.index t (0 : Fin 2) * 1024 + 1 * (j 0).val = t.val / 4 * 1024 + (j 0).val
    rw [f0]; omega)

/-- An index of the result array is in point t's block iff each coordinate is in the block's range on its axis. -/
theorem mem_blk (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Every row is in the block of the closing point of its row block. -/
theorem covered (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN := N_eq
  obtain ⟨t, ht⟩ : ∃ t : Fin cfg0.N, t.val = 4 * ((i 0).val / 1024) + 3 := ⟨⟨4 * ((i 0).val / 1024) + 3, by omega⟩, rfl⟩
  refine ⟨t, (flush0_2 t).mpr (by omega), ?_⟩
  obtain ⟨-, -, -, -, f0, f1⟩ := index_facts t
  rw [mem_blk]
  intro a
  match a with
  | ⟨0, _⟩ =>
    show win0_2.index t (0 : Fin 2) * 1024 ≤ (i 0).val ∧ (i 0).val < win0_2.index t (0 : Fin 2) * 1024 + 1024
    rw [f0]; omega
  | ⟨1, _⟩ =>
    show win0_2.index t (1 : Fin 2) * 1 ≤ (i 1).val ∧ (i 1).val < win0_2.index t (1 : Fin 2) * 1 + 1
    rw [f1]; omega

/-- THE RESULT ARRAY after the run: the interaction term of every row. -/
theorem final (c : Dev nD) : (dats m 0 c).arrAt 2 cfg0.N = result (xarr m c) (varr m c) :=
  (dats m 0 c).arrAt_eq_of_cover 2 (result (xarr m c) (varr m c)) (flushed_eq m c) covered

/-- The kernel's run, read: the result array at the interaction terms of the argument arrays, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.FM

end
-- ==== Proof.RefValue.lean ====
/-
  The reference computes the interaction term.

  Read one operation at a time, the reference's result at row i is the word for one half times
  "zero plus the sum over the 256 columns f" of the square of the contraction of x's row i with v's column f,
  minus the contraction of the squared row with the squared column: the function of the arrays stated as
  `Cert.FM.result`, the zero initial value of the sum dropping out.
-/
import proofs.«110201_j82901458747778_1_alg».proof.Proof.Gen.ReferenceIdeal.Read
import proofs.«110201_j82901458747778_1_alg».proof.Proof.Spec

noncomputable section

namespace Cert.ReferenceIdeal.FM

open Cert.ReferenceIdeal Cert.ReferenceIdeal.Gen Cert.ReferenceIdeal.Read Idealize.ShloMosaic Idealize.ShloMosaic.TcCoe
open Idealize.ShloMosaic.ValueIdx Cert.FM

/-- The reference's last stage is the interaction term of each row. -/
theorem reference_eq (x : (⟨S16384x4096, .f32⟩ : BufTy).Contents (Elt Ideal)) (v : (⟨S4096x256, .f32⟩ : BufTy).Contents (Elt Ideal)) :
    val_main_v9 (F := Ideal) x v = result x v := by
  funext i
  have el : ∀ (k : Fin 256) (n : Fin 4096), lidx_main_v0 (idx_main_v6 (idx_main_v7 i) k) n = ix2 (i 0) n := fun k n =>
    funext fun a => Fin.ext (by match a with | ⟨0, _⟩ => rfl | ⟨1, _⟩ => rfl)
  have er : ∀ (k : Fin 256) (n : Fin 4096), ridx_main_v0 (idx_main_v6 (idx_main_v7 i) k) n = ix2 n k := fun k n =>
    funext fun a => Fin.ext (by match a with | ⟨0, _⟩ => rfl | ⟨1, _⟩ => rfl)
  have el3 : ∀ (k : Fin 256) (n : Fin 4096), lidx_main_v3 (idx_main_v6 (idx_main_v7 i) k) n = ix2 (i 0) n := fun k n =>
    funext fun a => Fin.ext (by match a with | ⟨0, _⟩ => rfl | ⟨1, _⟩ => rfl)
  have er3 : ∀ (k : Fin 256) (n : Fin 4096), ridx_main_v3 (idx_main_v6 (idx_main_v7 i) k) n = ix2 n k := fun k n =>
    funext fun a => Fin.ext (by match a with | ⟨0, _⟩ => rfl | ⟨1, _⟩ => rfl)
  rw [val_main_v9_apply, val_main_v8_apply, val_main_cst_0_apply, val_main_v7_apply, val_main_v6_apply, val_main_cst_apply]
  simp only [val_main_v5_apply, val_main_v4_apply, val_main_v0_apply, val_main_v3_apply, val_main_v1_apply, val_main_v2_apply,
    el, er, el3, er3]
  show Ideal.ofBits .f32 0x3F000000#32 * (Ideal.ofBits .f32 0x00000000#32 + _) = _
  rw [Ideal.ofBits_zero_f32, zero_add]
  rfl

end Cert.ReferenceIdeal.FM

end
-- ==== Proof.lean ====
/-
  The kernel computes, for every row b of x, the second-order interaction term
      one half * sum over f of ( (x v)(b, f)^2 - (x^2 v^2)(b, f) ),
  with the two contractions over the 4096 shared indices accumulated in four steps of 1024 over a grid axis, the
  operands rounded to bf16 before each product; the reference computes the same term with two whole contractions.
  On the extended reals a change of float format is the identity and addition is associative and commutative, so
  the four partial contractions add up to the whole one and both programs end with the same array: no finiteness of
  the inputs is used. The frames of the two kernel programs are the generated ones, the reference's frame is its
  generated run with the result dropped, and the idealization rewrote no operation.
-/
import proofs.«110201_j82901458747778_1_alg».proof.Defs
import proofs.«110201_j82901458747778_1_alg».proof.Proof.Gen.Kernel
import proofs.«110201_j82901458747778_1_alg».proof.Proof.Gen.Kernel.Skeleton
import proofs.«110201_j82901458747778_1_alg».proof.Proof.Gen.Kernel.Launch
import proofs.«110201_j82901458747778_1_alg».proof.Proof.Gen.Kernel.Points
import proofs.«110201_j82901458747778_1_alg».proof.Proof.Gen.Kernel.Frame
import proofs.«110201_j82901458747778_1_alg».proof.Proof.Gen.KernelIdeal
import proofs.«110201_j82901458747778_1_alg».proof.Proof.Gen.KernelIdeal.Skeleton
import proofs.«110201_j82901458747778_1_alg».proof.Proof.Gen.KernelIdeal.Launch
import proofs.«110201_j82901458747778_1_alg».proof.Proof.Gen.KernelIdeal.Points
import proofs.«110201_j82901458747778_1_alg».proof.Proof.Gen.KernelIdeal.Frame
import proofs.«110201_j82901458747778_1_alg».proof.Proof.Gen.ReferenceIdeal
import proofs.«110201_j82901458747778_1_alg».proof.Proof.Gen.Pre_finite_inputs
import proofs.«110201_j82901458747778_1_alg».proof.Proof.Gen.KernelIdeal.Value
import proofs.«110201_j82901458747778_1_alg».proof.Proof.Gen.ReferenceIdeal.Run
import proofs.«110201_j82901458747778_1_alg».proof.Proof.Gen.ReferenceIdeal.Read
import proofs.«110201_j82901458747778_1_alg».proof.Proof.KernelValue
import proofs.«110201_j82901458747778_1_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the interaction term of every row of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.FM.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.FM.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.FM.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
